-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x8 : Shape := ⟨2, ![32768, 8]⟩
abbrev S8x1024 : Shape := ⟨2, ![8, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x8 : S_.BroadcastsInDim S32768x8 (![] : Fin 0 → Fin S32768x8.rank)
  reducesTo_S32768x8_S_d0_1 : S32768x8.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_arg5 : FVec F S8x1024 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_v24 : FVec F S8x1024 .f32 := Host.absf main_arg5
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  main_v28

def fn {F : FTy → Type} [FloatOps F] (main_arg0 : FVec F S32768x1024 .f32) (main_arg1 : FVec F S32768x8 .f32) (main_arg2 : FVec F S8x1024 .f32) (main_arg3 : FVec F S8x1024 .f32) (main_arg4 : FVec F S8x1024 .f32) (main_arg5 : FVec F S8x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x8 .f32 := Host.absf main_arg1
  let main_cst_0 : FVec F S_ .f32 := constant S_ .f32 0x7F800000#32
  let main_v5 : FVec F S32768x8 .f32 := broadcastInDim S32768x8 ![] bcast_S_S32768x8 main_cst_0
  let main_v6 : IVec S32768x8 1 := cmpf .olt main_v4 main_v5
  let main_c_1 : IVec S_ 1 := constantI S_ 1 1#1
  let main_v7 : IVec S_ 1 := (fun x v => Host.reduce IntOp.andi x v reducesTo_S32768x8_S_d0_1 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg4 main_arg5 main_v13 main_v16
-- ==== Kernel.lean ====
abbrev S32768x1024 : Shape := ⟨2, ![32768, 1024]⟩
abbrev S32768x8 : Shape := ⟨2, ![32768, 8]⟩
abbrev S8x1024 : Shape := ⟨2, ![8, 1024]⟩
abbrev S8x32768 : Shape := ⟨2, ![8, 32768]⟩
abbrev S1024x1024 : Shape := ⟨2, ![1024, 1024]⟩
abbrev S8x2048 : Shape := ⟨2, ![8, 2048]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x32768, .f32⟩
  | .hbm, ⟨7, _⟩ => ⟨S32768x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S32768x8_S8x32768_1_0 : S32768x8.Transposes [1, 0] S8x32768
  inb_S8x1024_S8x1024_0_0 : ∀ a, (![0, 0] : Fin 2 → Nat) a + S8x1024.size a ≤ S8x1024.size a
  h_S8x1024 : 0 < S8x1024.numel
  concatenates_S8x1024_S8x1024_S8x2048_d1 : Shape.Concatenates [S8x1024, S8x1024] S8x2048 1
  shapeCasts_S8x1024_S8x1024 : S8x1024.ShapeCasts S8x1024
  slices_S1024x2048_o0_0_S1024x1024 : S1024x2048.Slices ![0, 0] S1024x1024
  slices_S1024x2048_o0_1024_S1024x1024 : S1024x2048.Slices ![0, 1024] S1024x1024
  inb_S1024x1024_S1024x1024_0_0 : ∀ a, (![0, 0] : Fin 2 → Nat) a + S1024x1024.size a ≤ S1024x1024.size a
  h_S1024x1024 : 0 < S1024x1024.numel
  dot_S8x1024_S8x2048_S1024x2048_0_0_1_1_n_n_wf : DotDims.WF S8x1024 S8x2048 S1024x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8x32768.size a
  hwx0_0 : ∀ i : grid0.Coords, EltTy.bits .f32 = 32 ∨ (Rect.block (s := S8x32768) S8x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x1024.size a
  hwx0_3 : ∀ i : grid0.Coords, EltTy.bits .f32 = 32 ∨ (Rect.block (s := S8x1024) S8x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S8x1024_S8x2048_S1024x2048_0_0_1_1_n_n : DotDims S8x1024 S8x2048 S1024x2048 where
  lhsContracting := [0]
  rhsContracting := [0]
  lhsNonContracting := [1]
  rhsNonContracting := [1]
  lhsBatch := []
  rhsBatch := []
  wf := dot_S8x1024_S8x2048_S1024x2048_0_0_1_1_n_n_wf

abbrev win0_0 : Pipeline.Window sig grid0 :=
  Pipeline.Window.ofSpec (Memref.whole main_v0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x8 : Shape := ⟨2, ![32768, 8]⟩
abbrev S8x1024 : Shape := ⟨2, ![8, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  dot_S32768x8_S8x1024_S32768x1024_1_0_0_1_n_n_wf : DotDims.WF S32768x8 S8x1024 S32768x1024 [1] [0] [0] [1] [] []

variable [Facts₀]

def dot_S32768x8_S8x1024_S32768x1024_1_0_0_1_n_n : DotDims S32768x8 S8x1024 S32768x1024 where
  lhsContracting := [1]
  rhsContracting := [0]
  lhsNonContracting := [0]
  rhsNonContracting := [1]
  lhsBatch := []
  rhsBatch := []
  wf := dot_S32768x8_S8x1024_S32768x1024_1_0_0_1_n_n_wf

class Facts : Prop extends Facts₀ where

variable [Facts]
-- ==== Proof.Spec.lean ====
/-
  The function both programs compute, index by index, on the extended reals.

  For a batch row `b`, a feature `f` and the eight domains `d`:
    scale d f = gamma d f · rsqrt (var d f + ε)
    shift d f = beta d f − mean d f · scale d f
    out b f   = x b f · (∑ d, mask b d · scale d f) + ∑ d, mask b d · shift d f
  where ε is the one f32 literal both programs carry (the same word on both sides, never evaluated).
  Nothing here needs finiteness: the two programs are the same expression, the sums over the same
  eight terms in the same order.
-/
import Idealize.ShloMosaic.PureOps.Ideal
import Idealize.ShloMosaic.Lib.ValueIdx

noncomputable section

namespace Cert.DomainNorm

open Idealize.ShloMosaic Idealize.ShloMosaic.ValueIdx

/-- The shapes of the arguments: the batch of rows, the row-by-domain mask, a per-domain table. -/
abbrev SRows : Shape := ⟨2, ![32768, 1024]⟩
abbrev SMask : Shape := ⟨2, ![32768, 8]⟩
abbrev STab : Shape := ⟨2, ![8, 1024]⟩

/-- The literal added to the variance before the reciprocal square root. -/
abbrev eps : EReal := Ideal.ofBits .f32 0x3727C5AC#32

/-- Domain `d`'s scale at feature `f`: gamma · rsqrt (var + ε). -/
def scale (gam var : FVec Ideal STab .f32) (d : Fin 8) (f : Fin 1024) : EReal :=
  gam (ix2 d f) * Ideal.rsqrt (var (ix2 d f) + eps)

/-- Domain `d`'s shift at feature `f`: beta − mean · scale. -/
def shift (gam bet mean var : FVec Ideal STab .f32) (d : Fin 8) (f : Fin 1024) : EReal :=
  bet (ix2 d f) - mean (ix2 d f) * scale gam var d f

/-- The result: each row scaled and shifted by its mask-weighted mixture of the domains' scales and shifts. -/
def out (x : FVec Ideal SRows .f32) (mask : FVec Ideal SMask .f32) (gam bet mean var : FVec Ideal STab .f32) :
    FVec Ideal SRows .f32 := fun i =>
  x i * (∑ d : Fin 8, mask (ix2 (i 0) d) * scale gam var d (i 1))
    + ∑ d : Fin 8, mask (ix2 (i 0) d) * shift gam bet mean var d (i 1)

end Cert.DomainNorm

end
-- ==== Proof.KernelBody.lean ====
/-
  The kernel body's stored value, read at one element of the output block.

  The body forms the per-domain scale and shift tables (8 × 1024 each), lays them side by side as one 8 × 2048
  table, and multiplies the transposed mask block (8 × 1024: domain by row) into it, contracting the DOMAIN
  axis of both operands. Row `p`, column `c` of that product is ∑ d, mask d p · table d c; its left half
  (columns below 1024) is the mixture of scales and its right half (columns from 1024) the mixture of
  shifts. The stored value at (p, q) is x p q · product p q + product p (1024 + q).
-/
import proofs.«401592_j9706626089249_3_alg».proof.Proof.Gen.KernelIdeal.Skeleton
import proofs.«401592_j9706626089249_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.DomainNorm

/-! ## The product that contracts the first axis of both operands -/

/-- The left operand is read on its axis 0 at the contraction position, -/
theorem lhs_mm_0 (i : S1024x2048.Idx) (q : dot_S8x1024_S8x2048_S1024x2048_0_0_1_1_n_n.contr.Idx) :
    (dot_S8x1024_S8x2048_S1024x2048_0_0_1_1_n_n.lhsIdx i q 0).val = (q ⟨0, by decide⟩).val :=
  dot_S8x1024_S8x2048_S1024x2048_0_0_1_1_n_n.lhsIdx_val_of_single rfl i q
/-- and on its axis 1 at the output's row; -/
theorem lhs_mm_1 (i : S1024x2048.Idx) (q : dot_S8x1024_S8x2048_S1024x2048_0_0_1_1_n_n.contr.Idx) :
    (dot_S8x1024_S8x2048_S1024x2048_0_0_1_1_n_n.lhsIdx i q 1).val = (i 0).val := by
  unfold DotDims.lhsIdx
  rw [dif_neg (show ¬(1 : Fin S8x1024.rank) ∈ dot_S8x1024_S8x2048_S1024x2048_0_0_1_1_n_n.lhsBatch by decide), dif_pos (show (1 : Fin S8x1024.rank) ∈ dot_S8x1024_S8x2048_S1024x2048_0_0_1_1_n_n.lhsNonContracting by decide)]
  rfl
/-- the right operand on its axis 0 at the contraction position, -/
theorem rhs_mm_0 (i : S1024x2048.Idx) (q : dot_S8x1024_S8x2048_S1024x2048_0_0_1_1_n_n.contr.Idx) :
    (dot_S8x1024_S8x2048_S1024x2048_0_0_1_1_n_n.rhsIdx i q 0).val = (q ⟨0, by decide⟩).val :=
  dot_S8x1024_S8x2048_S1024x2048_0_0_1_1_n_n.rhsIdx_val_of_single rfl i q
/-- and on its axis 1 at the output's column. -/
theorem rhs_mm_1 (i : S1024x2048.Idx) (q : dot_S8x1024_S8x2048_S1024x2048_0_0_1_1_n_n.contr.Idx) :
    (dot_S8x1024_S8x2048_S1024x2048_0_0_1_1_n_n.rhsIdx i q 1).val = (i 1).val := by
  unfold DotDims.rhsIdx
  rw [dif_neg (show ¬(1 : Fin S8x2048.rank) ∈ dot_S8x1024_S8x2048_S1024x2048_0_0_1_1_n_n.rhsBatch by decide), dif_pos (show (1 : Fin S8x2048.rank) ∈ dot_S8x1024_S8x2048_S1024x2048_0_0_1_1_n_n.rhsNonContracting by decide)]
  rfl

/-- Into a zero accumulator, the product at row `p`, column `c` is the sum over the eight domains of
    the left operand at (d, p) times the right at (d, c). -/
theorem product_apply (l : FVec Ideal S8x1024 .f32) (r : FVec Ideal S8x2048 .f32) (p : Fin 1024) (c : Fin 2048) :
    matmul dot_S8x1024_S8x2048_S1024x2048_0_0_1_1_n_n none l r (constant (F := Ideal) S1024x2048 .f32 0x00000000#32) (ix2 p c)
      = ∑ d : Fin 8, l (ix2 d p) * r (ix2 d c) := by
  simp only [matmul]
  rw [Ideal.matmul_constant_zero_apply, ← Equiv.sum_comp (ValueIdx.contrEquiv1 dot_S8x1024_S8x2048_S1024x2048_0_0_1_1_n_n 8 rfl rfl).symm]
  refine Finset.sum_congr rfl fun k _ => ?_
  have hk := ValueIdx.contrEquiv1_symm_val dot_S8x1024_S8x2048_S1024x2048_0_0_1_1_n_n 8 rfl rfl k
  have el : dot_S8x1024_S8x2048_S1024x2048_0_0_1_1_n_n.lhsIdx (ix2 p c) ((ValueIdx.contrEquiv1 dot_S8x1024_S8x2048_S1024x2048_0_0_1_1_n_n 8 rfl rfl).symm k) = ix2 k p := funext fun a => Fin.ext (by
    match a with
    | ⟨0, _⟩ => exact (lhs_mm_0 _ _).trans hk
    | ⟨1, _⟩ => exact lhs_mm_1 _ _)
  have er : dot_S8x1024_S8x2048_S1024x2048_0_0_1_1_n_n.rhsIdx (ix2 p c) ((ValueIdx.contrEquiv1 dot_S8x1024_S8x2048_S1024x2048_0_0_1_1_n_n 8 rfl rfl).symm k) = ix2 k c := funext fun a => Fin.ext (by
    match a with
    | ⟨0, _⟩ => exact (rhs_mm_0 _ _).trans hk
    | ⟨1, _⟩ => exact rhs_mm_1 _ _)
  rw [el, er]

/-! ## The two tables side by side -/

/-- A column below 1024 of the two tables laid side by side is that column of the first table, -/
theorem tables_left (a b : FVec Ideal S8x1024 .f32) (d : Fin 8) (q : Fin 1024) (k : Fin 2048) (hk : k.val = q.val) :
    concatenate S8x2048 1 [⟨S8x1024, a⟩, ⟨S8x1024, b⟩] Facts₀.concatenates_S8x1024_S8x1024_S8x2048_d1 (ix2 d k) = a (ix2 d q) :=
  concatenate_pair_apply_left 1 a b _ (ix2 d k) rfl (ix2 d q) (fun ax => by
    match ax with
    | ⟨0, _⟩ => rfl
    | ⟨1, _⟩ => exact hk.symm)

/-- and a column from 1024 on is the column 1024 earlier of the second. -/
theorem tables_right (a b : FVec Ideal S8x1024 .f32) (d : Fin 8) (q : Fin 1024) (k : Fin 2048) (hk : k.val = 1024 + q.val) :
    concatenate S8x2048 1 [⟨S8x1024, a⟩, ⟨S8x1024, b⟩] Facts₀.concatenates_S8x1024_S8x1024_S8x2048_d1 (ix2 d k) = b (ix2 d q) :=
  concatenate_pair_apply_right 1 a b _ (ix2 d k) rfl rfl (ix2 d q) (fun ax hne => by
    match ax, hne with
    | ⟨0, _⟩, _ => rfl
    | ⟨1, _⟩, h => exact absurd rfl h) (by show q.val + 1024 = k.val; omega)

/-- The same two facts, with the wide table's column written out from the narrow one's. -/
theorem tables_left_at (a b : FVec Ideal S8x1024 .f32) (d : Fin 8) (q : Fin 1024) (h : q.val < 2048) :
    concatenate S8x2048 1 [⟨S8x1024, a⟩, ⟨S8x1024, b⟩] Facts₀.concatenates_S8x1024_S8x1024_S8x2048_d1 (ix2 d ⟨q.val, h⟩) = a (ix2 d q) :=
  tables_left a b d q _ rfl
theorem tables_right_at (a b : FVec Ideal S8x1024 .f32) (d : Fin 8) (q : Fin 1024) (h : 1024 + q.val < 2048) :
    concatenate S8x2048 1 [⟨S8x1024, a⟩, ⟨S8x1024, b⟩] Facts₀.concatenates_S8x1024_S8x1024_S8x2048_d1 (ix2 d ⟨1024 + q.val, h⟩) = b (ix2 d q) :=
  tables_right a b d q _ rfl

/-! ## The stored value at an element -/

/-- The body's stored value at row `p`, feature `q` of the block: the row's entry times the mask-weighted
    mixture of the domains' scales, plus the mixture of their shifts; the mask block is indexed domain first. -/
theorem stored_apply (gam var bet mean maskT : Vec Ideal S8x1024 .f32) (x : Vec Ideal S1024x1024 .f32) (p q : Fin 1024) :
    k0_pay1 (F := Ideal) gam var bet mean maskT x (ix2 p q)
      = x (ix2 p q) * (∑ d : Fin 8, maskT (ix2 d p) * scale gam var d q)
        + ∑ d : Fin 8, maskT (ix2 d p) * shift gam bet mean var d q := by
  have hL : ∀ M : FVec Ideal S1024x2048 .f32,
      extractStridedSlice S1024x1024 ![0, 0] M Facts₀.slices_S1024x2048_o0_0_S1024x1024 (ix2 p q) = M (ix2 p ⟨q.val, by omega⟩) :=
    fun M => slice2_axis1_apply 0 M _ p q _ (Nat.zero_add _).symm
  have hR : ∀ M : FVec Ideal S1024x2048 .f32,
      extractStridedSlice S1024x1024 ![0, 1024] M Facts₀.slices_S1024x2048_o0_1024_S1024x1024 (ix2 p q) = M (ix2 p ⟨1024 + q.val, by omega⟩) :=
    fun M => slice2_axis1_apply 1024 M _ p q _ rfl
  unfold k0_pay1
  rw [addf_apply, mulf_apply, hL, hR, shapeCast_self, product_apply, product_apply]
  simp only [tables_left_at, tables_right_at]
  rfl

end Cert.KernelIdeal.BodyValue

end
-- ==== Proof.KernelValue.lean ====
/-
  From the kernel's blocks to its whole result array.

  The grid has 32 points; point `t` works on rows 1024·t … 1024·t + 1023. Its output block and its block of
  input rows sit at block index (t, 0); its mask block is block (0, t) of the TRANSPOSED mask (domain by row),
  which the host forms before the launch; the four per-domain tables are fetched whole (block (0, 0)).
  So the element (p, q) of what point `t` writes back is the specified function at row 1024·t + p, feature q;
  the 32 blocks tile the array; hence the array ends as the specified function of the six arguments.
-/
import proofs.«401592_j9706626089249_3_alg».proof.Proof.Gen.KernelIdeal.Value
import proofs.«401592_j9706626089249_3_alg».proof.Proof.KernelBody
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.DomainNorm Cert.KernelIdeal.BodyValue
open Idealize.ShloMosaic.Pipeline (Dat)

variable (m : (ℓ : Loc nD τ sig) → Buf (Elt Ideal) ℓ) (ρ : Dev nD → PrngReg)

/-- Every load and the store of the body start at the origin of their buffers. -/
theorem origin : (![0, 0] : Fin 2 → Nat) = fun _ => 0 := funext fun a => by fin_cases a <;> rfl

/-- The block indices of the seven windows at every grid point: the tables' are (0, 0); the mask's is (0, r)
    and the rows' (r, 0), where (r, 0) is the output's; and r is the point's number. -/
theorem idx_facts : ∀ t : Fin cfg0.N,
    win0_0.index t (0 : Fin 2) = 0 ∧ win0_0.index t (1 : Fin 2) = win0_6.index t (0 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = win0_6.index t (0 : Fin 2) ∧ win0_5.index t (1 : Fin 2) = 0
    ∧ win0_6.index t (1 : Fin 2) = 0 ∧ win0_6.index t (0 : Fin 2) ≤ 31 :=
  (by decide +kernel : ∀ t : Fin grid0.N, _)

/-- Every block row of the output is some point's. -/
theorem idx_onto : ∀ r : Fin 32, ∃ t : Fin cfg0.N, win0_6.index t = ![r.val, 0] :=
  (by decide +kernel : ∀ r : Fin 32, ∃ t : Fin grid0.N, win0_6.index t = ![r.val, 0])

/-- What the region finds in the mask window's array: the host's transpose of the mask argument. -/
theorem maskT_eq (c : Dev nD) :
    (V m c main_v0 : S8x32768.Idx → EReal)
      = transpose S8x32768 [1, 0] (m ((c : Thread nD τ).loc main_arg1)) Facts₀.transposes_S32768x8_S8x32768_1_0 := by
  dsimp only [Gen.V, Gen.hostOps0]
  after_results

/-- The array the run leaves, as a function of the arrays the region finds. -/
abbrev found (c : Dev nD) : FVec Ideal SRows .f32 :=
  out (V m c main_arg0) (m ((c : Thread nD τ).loc main_arg1)) (V m c main_arg2) (V m c main_arg3) (V m c main_arg4) (V m c main_arg5)

/-- A table window's block is the whole table. -/
theorem emb_whole (t : Fin cfg0.N) (i0 i1 : ℕ) (h0 : i0 = 0) (h1 : i1 = 0) (y : S8x1024.Idx) (z : S8x1024.Idx)
    (hz0 : (z 0).val = i0 * 8 + 1 * (y 0).val) (hz1 : (z 1).val = i1 * 1024 + 1 * (y 1).val) : z = y := by
  funext a; apply Fin.ext
  match a with
  | ⟨0, _⟩ => show (z 0).val = (y 0).val; omega
  | ⟨1, _⟩ => show (z 1).val = (y 1).val; omega

/-- The stored value at an element of a block is the specified function at the array index under it, given how
    the block's row and the mask block's column sit in the arrays. -/
theorem stored_eq_out (gam var bet mean maskT : Vec Ideal S8x1024 .f32) (x : Vec Ideal S1024x1024 .f32)
    (X : FVec Ideal SRows .f32) (MK : FVec Ideal SMask .f32)
    (j : S1024x1024.Idx) (i : SRows.Idx)
    (hcol : (i 1).val = (j 1).val)
    (hx : x j = X i)
    (hm : ∀ d : Fin 8, maskT (ix2 d (j 0)) = MK (ix2 (i 0) d)) :
    k0_pay1 (F := Ideal) gam var bet mean maskT x j = out X MK gam bet mean var i := by
  obtain ⟨p, q, rfl⟩ : ∃ (p q : Fin 1024), j = ix2 p q := ⟨j 0, j 1, eq_ix2 j⟩
  have hq : i 1 = q := Fin.ext hcol
  rw [stored_apply, hx]
  simp only [hm]
  show _ = X i * (∑ d : Fin 8, MK (ix2 (i 0) d) * scale gam var d (i 1)) + ∑ d : Fin 8, MK (ix2 (i 0) d) * shift gam bet mean var d (i 1)
  rw [hq]

/-- WHAT POINT `t` WRITES BACK is block `t` of the specified function of the arrays the region finds. -/
theorem flushed_eq (c : Dev nD) (t : Fin cfg0.N) :
    (dats m 0 c).flushed 6 t = ((cfg0.win 6).blk t).view.read (Elt Ideal) (found m c) := by
  rw [Cert.KernelIdeal.Value.flushed6]
  unfold out0_6
  rw [View.canon_unit_zero origin]
  simp only [View.ld_unit_zero (S := S8x1024) origin, View.ld_unit_zero (S := S1024x1024) origin]
  obtain ⟨e00, e01, e10, e11, e20, e21, e30, e31, e40, e41, e50, e51, e61, e60⟩ := idx_facts t
  have g1 : (iblk m c 1 t : Vec Ideal S8x1024 .f32) = V m c main_arg2 := by
    funext y
    show V m c main_arg2 (((cfg0.win 1).blk t).view.emb y) = V m c main_arg2 y
    refine congrArg _ (emb_whole t _ _ e10 e11 y _ ?_ ?_)
    · show win0_1.index t (0 : Fin 2) * 8 + 1 * (y 0).val = _; rfl
    · show win0_1.index t (1 : Fin 2) * 1024 + 1 * (y 1).val = _; rfl
  have g2 : (iblk m c 2 t : Vec Ideal S8x1024 .f32) = V m c main_arg3 := by
    funext y
    show V m c main_arg3 (((cfg0.win 2).blk t).view.emb y) = V m c main_arg3 y
    refine congrArg _ (emb_whole t _ _ e20 e21 y _ ?_ ?_)
    · show win0_2.index t (0 : Fin 2) * 8 + 1 * (y 0).val = _; rfl
    · show win0_2.index t (1 : Fin 2) * 1024 + 1 * (y 1).val = _; rfl
  have g3 : (iblk m c 3 t : Vec Ideal S8x1024 .f32) = V m c main_arg4 := by
    funext y
    show V m c main_arg4 (((cfg0.win 3).blk t).view.emb y) = V m c main_arg4 y
    refine congrArg _ (emb_whole t _ _ e30 e31 y _ ?_ ?_)
    · show win0_3.index t (0 : Fin 2) * 8 + 1 * (y 0).val = _; rfl
    · show win0_3.index t (1 : Fin 2) * 1024 + 1 * (y 1).val = _; rfl
  have g4 : (iblk m c 4 t : Vec Ideal S8x1024 .f32) = V m c main_arg5 := by
    funext y
    show V m c main_arg5 (((cfg0.win 4).blk t).view.emb y) = V m c main_arg5 y
    refine congrArg _ (emb_whole t _ _ e40 e41 y _ ?_ ?_)
    · show win0_4.index t (0 : Fin 2) * 8 + 1 * (y 0).val = _; rfl
    · show win0_4.index t (1 : Fin 2) * 1024 + 1 * (y 1).val = _; rfl
  funext j
  show k0_pay1 (F := Ideal) (iblk m c 1 t) (iblk m c 4 t) (iblk m c 2 t) (iblk m c 3 t) (iblk m c 0 t) (iblk m c 5 t) j
    = found m c (((cfg0.win 6).blk t).view.emb j)
  rw [g1, g2, g3, g4]
  refine stored_eq_out (V m c main_arg2) (V m c main_arg5) (V m c main_arg3) (V m c main_arg4) (iblk m c 0 t) (iblk m c 5 t)
    (V m c main_arg0) (m ((c : Thread nD τ).loc main_arg1)) j (((cfg0.win 6).blk t).view.emb j) ?_ ?_ ?_
  · show win0_6.index t (1 : Fin 2) * 1024 + 1 * (j 1).val = (j 1).val
    omega
  · show V m c main_arg0 (((cfg0.win 5).blk t).view.emb j) = V m c main_arg0 (((cfg0.win 6).blk t).view.emb j)
    refine congrArg _ (funext fun a => Fin.ext ?_)
    match a with
    | ⟨0, _⟩ => show win0_5.index t (0 : Fin 2) * 1024 + 1 * (j 0).val = win0_6.index t (0 : Fin 2) * 1024 + 1 * (j 0).val; omega
    | ⟨1, _⟩ => show win0_5.index t (1 : Fin 2) * 1024 + 1 * (j 1).val = win0_6.index t (1 : Fin 2) * 1024 + 1 * (j 1).val; omega
  · intro d
    show V m c main_v0 (((cfg0.win 0).blk t).view.emb (ix2 d (j 0))) = _
    rw [maskT_eq]
    have hidx : ((cfg0.win 0).blk t).view.emb (ix2 d (j 0)) = ix2 d ((((cfg0.win 6).blk t).view.emb j) 0) := by
      funext a; apply Fin.ext
      match a with
      | ⟨0, _⟩ => show win0_0.index t (0 : Fin 2) * 8 + 1 * d.val = d.val; omega
      | ⟨1, _⟩ => show win0_0.index t (1 : Fin 2) * 1024 + 1 * (j 0).val = win0_6.index t (0 : Fin 2) * 1024 + 1 * (j 0).val; omega
    rw [hidx]
    exact transpose_ix2_apply _ _ _ _

/-- An index of the array is in point `t`'s block iff each coordinate is in the block's range on its axis. -/
theorem mem_blk (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v1).slice (win0_6.rect t)).set ↔ _
  rw [View.set_slice_whole, Rect.mem_set_unit]
  exact Iff.rfl

/-- The 32 blocks tile the array: row `r` is in the block of point `r / 1024`. -/
theorem covered (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE ARRAY after the run is the specified function of the six arguments as launched. -/
theorem final (c : Dev nD) :
    (dats m 0 c).arrAt 6 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [(dats m 0 c).arrAt_eq_of_cover 6 (found m c) (fun t _ => flushed_eq m c t) covered]
  show out (V m c main_arg0) _ (V m c main_arg2) (V m c main_arg3) (V m c main_arg4) (V m c main_arg5) = _
  rw [V_main_arg0, V_main_arg2, V_main_arg3, V_main_arg4, V_main_arg5]

/-- The kernel's run, read: the result array at the specified function of the arguments, the arguments unchanged. -/
theorem run : θ_run defs (onTc (τ := τ) (main (F := Ideal))) ⟨m, fun _ => 0, ρ⟩ fun r => ∀ c : Dev nD,
      r.2.mem ((c : Thread nD τ).loc main_v1) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrayValue

end
-- ==== Proof.RefValue.lean ====
/-
  The reference's result, read one stage at a time, is the specified function.

  The reference forms the same scale and shift tables on the host, takes the mask's product with each
  (contracting the mask's domain axis with the table's), and combines them with the rows. Read at row `b`,
  feature `f`, each product is the sum over the eight domains of mask b d times the table at (d, f).
-/
import proofs.«401592_j9706626089249_3_alg».proof.Proof.Gen.ReferenceIdeal.Read
import proofs.«401592_j9706626089249_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.DomainNorm

/-- The host's scale table at (d, f): gamma · rsqrt (var + ε). -/
theorem scale_stage (gam var : FVec Ideal S8x1024 .f32) (d : Fin 8) (f : Fin 1024) :
    val_main_v3 (F := Ideal) gam var (ix2 d f) = scale gam var d f := by
  rw [val_main_v3_apply, val_main_v2_apply, val_main_v1_apply, val_main_v0_apply, val_main_cst_apply]
  rfl

/-- The host's shift table at (d, f): beta − mean · scale. -/
theorem shift_stage (gam bet mean var : FVec Ideal S8x1024 .f32) (d : Fin 8) (f : Fin 1024) :
    val_main_v5 (F := Ideal) gam bet mean var (ix2 d f) = shift gam bet mean var d f := by
  rw [val_main_v5_apply, val_main_v4_apply, scale_stage]
  rfl

/-- The reference's last stage is the specified function of its six arguments. -/
theorem result_eq (x : FVec Ideal S32768x1024 .f32) (mask : FVec Ideal S32768x8 .f32) (gam bet mean var : FVec Ideal S8x1024 .f32) :
    val_main_v9 (F := Ideal) x mask gam bet mean var = out x mask gam bet mean var := by
  funext i
  obtain ⟨b, f, rfl⟩ : ∃ (b : Fin 32768) (f : Fin 1024), i = ix2 b f := ⟨i 0, i 1, eq_ix2 i⟩
  have hl6 : ∀ k : Fin 8, lidx_main_v6 (ix2 b f) k = ix2 b k := fun k => funext fun a => by
    match a with
    | ⟨0, _⟩ => rfl
    | ⟨1, _⟩ => rfl
  have hr6 : ∀ k : Fin 8, ridx_main_v6 (ix2 b f) k = ix2 k f := fun k => funext fun a => by
    match a with
    | ⟨0, _⟩ => rfl
    | ⟨1, _⟩ => rfl
  have hl7 : ∀ k : Fin 8, lidx_main_v7 (ix2 b f) k = ix2 b k := fun k => funext fun a => by
    match a with
    | ⟨0, _⟩ => rfl
    | ⟨1, _⟩ => rfl
  have hr7 : ∀ k : Fin 8, ridx_main_v7 (ix2 b f) k = ix2 k f := fun k => funext fun a => by
    match a with
    | ⟨0, _⟩ => rfl
    | ⟨1, _⟩ => rfl
  rw [val_main_v9_apply, val_main_v8_apply, val_main_v6_apply, val_main_v7_apply]
  simp only [hl6, hr6, hl7, hr7, scale_stage, shift_stage]
  rfl

end Cert.ReferenceIdeal.RefValue

end
-- ==== Proof.lean ====
/-
  Per-domain normalisation with a mask-weighted mixture of the domains, kernel against reference, over the
  extended reals.

  Both programs compute, for a batch row b and a feature f,
      out b f = x b f · (∑ d, mask b d · scale d f) + ∑ d, mask b d · shift d f,
      scale d f = gamma d f · rsqrt (var d f + ε),   shift d f = beta d f − mean d f · scale d f,
  over the eight domains d, with the same f32 literal ε on both sides. The reference takes the two mask
  products on the host. The kernel works on blocks of 1024 rows: it recomputes the two 8 × 1024 tables at every
  grid point, lays them side by side, multiplies the point's block of the transposed mask into the pair with one
  product contracting the domain axis, and reads the mixture of scales from the product's left half and the
  mixture of shifts from its right half. At the ideal instance a product into a zero accumulator is the plain
  sum over the contracted axis, so the two programs are the same expression term by term: no law of the
  extended reals beyond re-indexing is used, and the precondition is never opened.

  Spec.lean states the function; KernelBody.lean reads the body's stored value at an element; KernelValue.lean
  goes from the 32 blocks to the whole array; RefValue.lean reads the reference stage by stage. The three frames
  are the generated ones (the reference's is its generated run with the result dropped), and the idealization
  rewrote nothing, so `preserves` is trivial.
-/
import proofs.«401592_j9706626089249_3_alg».proof.Defs
import proofs.«401592_j9706626089249_3_alg».proof.Proof.Gen.Kernel
import proofs.«401592_j9706626089249_3_alg».proof.Proof.Gen.Kernel.Skeleton
import proofs.«401592_j9706626089249_3_alg».proof.Proof.Gen.Kernel.Launch
import proofs.«401592_j9706626089249_3_alg».proof.Proof.Gen.Kernel.Points
import proofs.«401592_j9706626089249_3_alg».proof.Proof.Gen.Kernel.Frame
import proofs.«401592_j9706626089249_3_alg».proof.Proof.Gen.KernelIdeal
import proofs.«401592_j9706626089249_3_alg».proof.Proof.Gen.KernelIdeal.Skeleton
import proofs.«401592_j9706626089249_3_alg».proof.Proof.Gen.KernelIdeal.Launch
import proofs.«401592_j9706626089249_3_alg».proof.Proof.Gen.KernelIdeal.Points
import proofs.«401592_j9706626089249_3_alg».proof.Proof.Gen.KernelIdeal.Frame
import proofs.«401592_j9706626089249_3_alg».proof.Proof.Gen.ReferenceIdeal
import proofs.«401592_j9706626089249_3_alg».proof.Proof.Gen.Pre_finite_inputs
import proofs.«401592_j9706626089249_3_alg».proof.Proof.Gen.KernelIdeal.Value
import proofs.«401592_j9706626089249_3_alg».proof.Proof.Gen.ReferenceIdeal.Run
import proofs.«401592_j9706626089249_3_alg».proof.Proof.Gen.ReferenceIdeal.Read
import Idealize.ShloMosaic.Adequacy
import Idealize.ShloMosaic.Init
import proofs.«401592_j9706626089249_3_alg».proof.Proof.Spec
import proofs.«401592_j9706626089249_3_alg».proof.Proof.KernelBody
import proofs.«401592_j9706626089249_3_alg».proof.Proof.KernelValue
import proofs.«401592_j9706626089249_3_alg».proof.Proof.RefValue

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the specified function of them. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
